-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x256x128x128 .f32) (main_arg1 : FVec F S16x256 .f32) (main_arg2 : FVec F S16 .f32) (main_arg3 : FVec F S256x16 .f32) (main_arg4 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S4096x16384 : Shape := ⟨2, ![4096, 16384]⟩
abbrev S4096x1 : Shape := ⟨2, ![4096, 1]⟩
abbrev S256x16384 : Shape := ⟨2, ![256, 16384]⟩
abbrev S256x1 : Shape := ⟨2, ![256, 1]⟩
abbrev S16x16 : Shape := ⟨2, ![16, 16]⟩
abbrev S1x16 : Shape := ⟨2, ![1, 16]⟩
abbrev S1x256 : Shape := ⟨2, ![1, 256]⟩
abbrev S128x16384 : Shape := ⟨2, ![128, 16384]⟩
abbrev S128x1 : Shape := ⟨2, ![128, 1]⟩

abbrev nBuf : Space → Nat
  | .hbm => 12
  | .vmem => 16
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S4096x16384, .f32⟩
  | .hbm, ⟨6, _⟩ => ⟨S4096x1, .f32⟩
  | .hbm, ⟨7, _⟩ => ⟨S16x256, .f32⟩
  | .hbm, ⟨8, _⟩ => ⟨S16x256, .f32⟩
  | .hbm, ⟨9, _⟩ => ⟨S4096x1, .f32⟩
  | .hbm, ⟨10, _⟩ => ⟨S4096x16384, .f32⟩
  | .hbm, ⟨11, _⟩ => ⟨S16x256x128x128, .f32⟩
  | .local _ .vmem, ⟨0, _⟩ => ⟨S256x16384, .f32⟩
  | .local _ .vmem, ⟨1, _⟩ => ⟨S256x16384, .f32⟩
  | .local _ .vmem, ⟨2, _⟩ => ⟨S256x1, .f32⟩
  | .local _ .vmem, ⟨3, _⟩ => ⟨S256x1, .f32⟩
  | .local _ .vmem, ⟨4, _⟩ => ⟨S16x256, .f32⟩
  | .local _ .vmem, ⟨5, _⟩ => ⟨S16x256, .f32⟩
  | .local _ .vmem, ⟨6, _⟩ => ⟨S16, .f32⟩
  | .local _ .vmem, ⟨7, _⟩ => ⟨S256x16, .f32⟩
  | .local _ .vmem, ⟨8, _⟩ => ⟨S256, .f32⟩
  | .local _ .vmem, ⟨9, _⟩ => ⟨S16x256, .f32⟩
  | .local _ .vmem, ⟨10, _⟩ => ⟨S128x16384, .f32⟩
  | .local _ .vmem, ⟨11, _⟩ => ⟨S128x16384, .f32⟩
  | .local _ .vmem, ⟨12, _⟩ => ⟨S128x1, .f32⟩
  | .local _ .vmem, ⟨13, _⟩ => ⟨S128x1, .f32⟩
  | .local _ .vmem, ⟨14, _⟩ => ⟨S128x16384, .f32⟩
  | .local _ .vmem, ⟨15, _⟩ => ⟨S128x16384, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x16384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S16x256x128x128_S4096x16384 : S16x256x128x128.ShapeCasts S4096x16384
  inb_S256x16384_S256x16384_0_0 : ∀ a, (![0, 0] : Fin 2 → Nat) a + S256x16384.size a ≤ S256x16384.size a
  h_S256x16384 : 0 < S256x16384.numel
  shapeCasts_S256x16384_S256x16384 : S256x16384.ShapeCasts S256x16384
  reduces_S256x16384_S256 : S256x16384.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S4096x1_S16x256 : S4096x1.ShapeCasts S16x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16_S16_0 : ∀ a, (![0] : Fin 1 → Nat) a + S16.size a ≤ S16.size a
  h_S16 : 0 < S16.numel
  inb_S256x16_S256x16_0_0 : ∀ a, (![0, 0] : Fin 2 → Nat) a + S256x16.size a ≤ S256x16.size a
  h_S256x16 : 0 < S256x16.numel
  inb_S256_S256_0 : ∀ a, (![0] : Fin 1 → Nat) a + S256.size a ≤ S256.size a
  h_S256 : 0 < S256.numel
  shapeCasts_S16_S1x16 : S16.ShapeCasts S1x16
  broadcasts_S1x16_S16x16 : S1x16.Broadcasts S16x16
  shapeCasts_S256_S1x256 : S256.ShapeCasts S1x256
  broadcasts_S1x256_S16x256 : S1x256.Broadcasts S16x256
  shapeCasts_S16x256_S4096x1 : S16x256.ShapeCasts S4096x1
  inb_S128x16384_S128x16384_0_0 : ∀ a, (![0, 0] : Fin 2 → Nat) a + S128x16384.size a ≤ S128x16384.size a
  h_S128x16384 : 0 < S128x16384.numel
  shapeCasts_S128x16384_S128x16384 : S128x16384.ShapeCasts S128x16384
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x16384 : S128x1.Broadcasts S128x16384
  shapeCasts_S4096x16384_S16x256x128x128 : S4096x16384.ShapeCasts S16x256x128x128
  dot_S16x256_S16x256_S16x16_1_1_0_0_n_n_wf : DotDims.WF S16x256 S16x256 S16x16 [1] [1] [0] [0] [] []
  dot_S16x16_S256x16_S16x256_1_1_0_0_n_n_wf : DotDims.WF S16x16 S256x16 S16x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S4096x16384.size a
  hwx0_0 : ∀ i : grid0.Coords, EltTy.bits .f32 = 32 ∨ (Rect.block (s := S4096x16384) S256x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x256.size a ≤ S16x256.size a
  hwx1_0 : ∀ i : grid1.Coords, EltTy.bits .f32 = 32 ∨ (Rect.block (s := S16x256) S16x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x256.size a ≤ S16x256.size a
  hwx1_1 : ∀ i : grid1.Coords, EltTy.bits .f32 = 32 ∨ (Rect.block (s := S16x256) S16x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16.size a ≤ S16.size a
  hwx1_2 : ∀ i : grid1.Coords, EltTy.bits .f32 = 32 ∨ (Rect.block (s := S16) S16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x16.size a ≤ S256x16.size a
  hwx1_3 : ∀ i : grid1.Coords, EltTy.bits .f32 = 32 ∨ (Rect.block (s := S256x16) S256x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x256.size a ≤ S16x256.size a
  hwx1_5 : ∀ i : grid1.Coords, EltTy.bits .f32 = 32 ∨ (Rect.block (s := S16x256) S16x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x16384.size a ≤ S4096x16384.size a
  hwx2_0 : ∀ i : grid2.Coords, EltTy.bits .f32 = 32 ∨ (Rect.block (s := S4096x16384) S128x16384.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S4096x1.size a
  hwx2_1 : ∀ i : grid2.Coords, EltTy.bits .f32 = 32 ∨ (Rect.block (s := S4096x1) S128x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x16384.size a ≤ S4096x16384.size a
  hwx2_2 : ∀ i : grid2.Coords, EltTy.bits .f32 = 32 ∨ (Rect.block (s := S4096x16384) S128x16384.size (cc2_transform_2 i) (hinb2_2 i)).WholeWords (EltTy.packing .f32)

variable [Facts₀]

def dot_S16x256_S16x256_S16x16_1_1_0_0_n_n : DotDims S16x256 S16x256 S16x16 where
  lhsContracting := [1]
  rhsContracting := [1]
  lhsNonContracting := [0]
  rhsNonContracting := [0]
  lhsBatch := []
  rhsBatch := []
  wf := dot_S16x256_S16x256_S16x16_1_1_0_0_n_n_wf
def dot_S16x16_S256x16_S16x256_1_1_0_0_n_n : DotDims S16x16 S256x16 S16x256 where
  lhsContracting := [1]
  rhsContracting := [1]
  lhsNonContracting := [0]
  rhsNonContracting := [0]
  lhsBatch := []
  rhsBatch := []
  wf := dot_S16x16_S256x16_S16x256_1_1_0_0_n_n_wf

abbrev win0_0 : Pipeline.Window sig grid0 :=
  Pipeline.Window.ofSpec (Memref.whole main_v0) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S16x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S16x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S16x256.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0) S128x16384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S128x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S128x16384.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩
abbrev S16x16 : Shape := ⟨2, ![16, 16]⟩
abbrev S1x16 : Shape := ⟨2, ![1, 16]⟩
abbrev S1x256 : Shape := ⟨2, ![1, 256]⟩
abbrev S16x256x1x1 : Shape := ⟨4, ![16, 256, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S_, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x16, .f32⟩
  | .hbm, ⟨11, _⟩ => ⟨S1x16, .f32⟩
  | .hbm, ⟨12, _⟩ => ⟨S16x16, .f32⟩
  | .hbm, ⟨13, _⟩ => ⟨S16x16, .f32⟩
  | .hbm, ⟨14, _⟩ => ⟨S_, .f32⟩
  | .hbm, ⟨15, _⟩ => ⟨S16x16, .f32⟩
  | .hbm, ⟨16, _⟩ => ⟨S16x16, .f32⟩
  | .hbm, ⟨17, _⟩ => ⟨S16x256, .f32⟩
  | .hbm, ⟨18, _⟩ => ⟨S1x256, .f32⟩
  | .hbm, ⟨19, _⟩ => ⟨S16x256, .f32⟩
  | .hbm, ⟨20, _⟩ => ⟨S16x256, .f32⟩
  | .hbm, ⟨21, _⟩ => ⟨S16x256, .f32⟩
  | .hbm, ⟨22, _⟩ => ⟨S16x256, .f32⟩
  | .hbm, ⟨23, _⟩ => ⟨S_, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256x1x1, .f32⟩
  | .hbm, ⟨30, _⟩ => ⟨S16x256x128x128, .f32⟩
  | .hbm, ⟨31, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S16x256_S16x256x1x1_0_1 : S16x256.BroadcastsInDim S16x256x1x1 (![0, 1] : Fin 2 → Fin S16x256x1x1.rank)
  bcast_S16x256x1x1_S16x256x128x128_0_1_2_3 : S16x256x1x1.BroadcastsInDim S16x256x128x128 (![0, 1, 2, 3] : Fin 4 → Fin S16x256x128x128.rank)
  dot_S16x256_S16x256_S16x16_1_1_0_0_n_n_wf : DotDims.WF S16x256 S16x256 S16x16 [1] [1] [0] [0] [] []
  dot_S16x16_S256x16_S16x256_1_1_0_0_n_n_wf : DotDims.WF S16x16 S256x16 S16x256 [1] [1] [0] [0] [] []

variable [Facts₀]

def dot_S16x256_S16x256_S16x16_1_1_0_0_n_n : DotDims S16x256 S16x256 S16x16 where
  lhsContracting := [1]
  rhsContracting := [1]
  lhsNonContracting := [0]
  rhsNonContracting := [0]
  lhsBatch := []
  rhsBatch := []
  wf := dot_S16x256_S16x256_S16x16_1_1_0_0_n_n_wf
def dot_S16x16_S256x16_S16x256_1_1_0_0_n_n : DotDims S16x16 S256x16 S16x256 where
  lhsContracting := [1]
  rhsContracting := [1]
  lhsNonContracting := [0]
  rhsNonContracting := [0]
  lhsBatch := []
  rhsBatch := []
  wf := dot_S16x16_S256x16_S16x256_1_1_0_0_n_n_wf

class Facts : Prop extends Facts₀ where

variable [Facts]
-- ==== Proof.Boundaries.lean ====
/-
  The arrays the three regions are entered with, walked back from the last boundary to the launch memory.

  Between the regions the program only reshapes: the input to [4096, 16384] before region 0, region 0's column to
  [16, 256] before region 1, region 1's gate to a [4096, 1] column before region 2, region 2's product back to
  [16, 256, 128, 128]. No region writes an argument or the reshaped input, so each region finds them as launched.
-/
import proofs.«156370_j33706903339438_1_alg».proof.Proof.Gen.KernelIdeal.Frame
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem Idealize.ShloMosaic.StableHlo

variable {F : FTy → Type} [FloatOps F]

/-! ## A reshape leaves every buffer but its result as it was -/

theorem keeps0 (W : Valuation τ sig (Elt F)) (b : Ref sig .tc) (hb : Proc.devRef .tc b ≠ (Proc.devRef .tc main_v0 : DevRef τ sig)) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.reshape_writes, Finset.mem_singleton]
    exact hb))

theorem keeps1 (W : Valuation τ sig (Elt F)) (b : Ref sig .tc) (hb : Proc.devRef .tc b ≠ (Proc.devRef .tc main_v2 : DevRef τ sig)) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact hb))

theorem keeps2 (W : Valuation τ sig (Elt F)) (b : Ref sig .tc) (hb : Proc.devRef .tc b ≠ (Proc.devRef .tc main_v4 : DevRef τ sig)) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact hb))

variable (m : (ℓ : Loc nD τ sig) → Buf (Elt F) ℓ) (ρ : Dev nD → PrngReg)

/-! ## What each region is entered with -/

/-- Region 0 is entered with the input reshaped to rows. -/
theorem rows_at_region0 (c : Dev nD) :
    V1 m ρ c main_v0 = shapeCast S4096x16384 (m ((c : Thread nD τ).loc main_arg0)) shapeCasts_S16x256x128x128_S4096x16384 := by
  show StableHlo.after hostOps0 (W0 m ρ c) (Proc.devRef .tc main_v0) = _
  after_results
  rfl

/-- Region 1 is entered with region 0's column reshaped to one entry per (batch, channel). -/
theorem pooled_at_region1 (c : Dev nD) :
    V3 m ρ c main_v2 = shapeCast S16x256 ((dat0 (V1 m ρ) c).arrAt 1 cfg0.N) shapeCasts_S4096x1_S16x256 := by
  show StableHlo.after hostOps1 (W2 m ρ c) (Proc.devRef .tc main_v2) = _
  after_results
  refine (show _ = shapeCast S16x256 (W2 m ρ c (Proc.devRef .tc (Pipeline.arrRef spec0 1))) shapeCasts_S4096x1_S16x256 from rfl).trans ?_
  rw [W2_arr]

/-- Region 1 is entered with the four weight arguments as launched: the reshapes write other buffers and region 0
    has none of them among its arrays. -/
theorem arg_at_region1 (c : Dev nD) (b : Ref sig .tc) (h2 : Proc.devRef .tc b ≠ (Proc.devRef .tc main_v2 : DevRef τ sig))
    (h0 : Proc.devRef .tc b ≠ (Proc.devRef .tc main_v0 : DevRef τ sig)) (hw : ∀ w, Pipeline.arrRef spec0 w ≠ b) :
    V3 m ρ c b = m ((c : Thread nD τ).loc b) :=
  calc W3 m ρ c (Proc.devRef .tc b)
    _ = W2 m ρ c (Proc.devRef .tc b) := keeps1 _ b h2
    _ = W1 m ρ c (Proc.devRef .tc b) := W2_of_ne m ρ c b hw
    _ = W0 m ρ c (Proc.devRef .tc b) := keeps0 _ b h0
    _ = m ((c : Thread nD τ).loc b) := rfl

theorem w1_at_region1 (c : Dev nD) : V3 m ρ c main_arg1 = m ((c : Thread nD τ).loc main_arg1) :=
  arg_at_region1 m ρ c main_arg1 (StableHlo.devRef_ne_of_ne (by decide)) (StableHlo.devRef_ne_of_ne (by decide)) (by decide)
theorem b1_at_region1 (c : Dev nD) : V3 m ρ c main_arg2 = m ((c : Thread nD τ).loc main_arg2) :=
  arg_at_region1 m ρ c main_arg2 (StableHlo.devRef_ne_of_ne (by decide)) (StableHlo.devRef_ne_of_ne (by decide)) (by decide)
theorem w2_at_region1 (c : Dev nD) : V3 m ρ c main_arg3 = m ((c : Thread nD τ).loc main_arg3) :=
  arg_at_region1 m ρ c main_arg3 (StableHlo.devRef_ne_of_ne (by decide)) (StableHlo.devRef_ne_of_ne (by decide)) (by decide)
theorem b2_at_region1 (c : Dev nD) : V3 m ρ c main_arg4 = m ((c : Thread nD τ).loc main_arg4) :=
  arg_at_region1 m ρ c main_arg4 (StableHlo.devRef_ne_of_ne (by decide)) (StableHlo.devRef_ne_of_ne (by decide)) (by decide)

/-- Region 2 is entered with the same rows region 0 read: region 0 only reads them, and nothing after writes them. -/
theorem rows_at_region2 (c : Dev nD) : V5 m ρ c main_v0 = V1 m ρ c main_v0 :=
  calc W5 m ρ c (Proc.devRef .tc main_v0)
    _ = W4 m ρ c (Proc.devRef .tc main_v0) := keeps2 _ main_v0 (StableHlo.devRef_ne_of_ne (by decide))
    _ = W3 m ρ c (Proc.devRef .tc main_v0) := W4_of_ne m ρ c main_v0 (by decide)
    _ = W2 m ρ c (Proc.devRef .tc main_v0) := keeps1 _ main_v0 (StableHlo.devRef_ne_of_ne (by decide))
    _ = W1 m ρ c (Proc.devRef .tc main_v0) := (W2_arr m ρ c 0).trans (((dat0 (V1 m ρ) c).arrAt_in 0 rfl _).trans (A_eq0 (V1 m ρ) c 0))

/-- Region 2 is entered with region 1's gate reshaped to a column. -/
theorem gate_at_region2 (c : Dev nD) :
    V5 m ρ c main_v4 = shapeCast S4096x1 ((dat1 (V3 m ρ) c).arrAt 5 cfg1.N) shapeCasts_S16x256_S4096x1 := by
  show StableHlo.after hostOps2 (W4 m ρ c) (Proc.devRef .tc main_v4) = _
  after_results
  refine (show _ = shapeCast S4096x1 (W4 m ρ c (Proc.devRef .tc (Pipeline.arrRef spec1 5))) shapeCasts_S16x256_S4096x1 from rfl).trans ?_
  rw [W4_arr]

/-- The result is region 2's output array reshaped to the input's shape. -/
theorem result_eq (c : Dev nD) :
    W7 m ρ c (Proc.devRef .tc main_v6)
      = shapeCast S16x256x128x128 ((dat2 (V5 m ρ) c).arrAt 2 cfg2.N) shapeCasts_S4096x16384_S16x256x128x128 := by
  show StableHlo.after hostOps3 (W6 m ρ c) (Proc.devRef .tc main_v6) = _
  after_results
  refine (show _ = shapeCast S16x256x128x128 (W6 m ρ c (Proc.devRef .tc (Pipeline.arrRef spec2 2))) shapeCasts_S4096x16384_S16x256x128x128 from rfl).trans ?_
  rw [W6_arr]

end Cert.KernelIdeal.Boundaries

end
-- ==== Proof.LibKeepdims.lean ====
/-
  General lemmas for kernels that keep a reduced axis as a column (`sum(..., keepdims=True)`) and for moving a
  finite factor through a finite sum of extended reals.

  · `mul_sum_of_nonneg_of_ne_top`: on the extended reals `a · Σ f = Σ a · f` for a factor `0 ≤ a < ⊤`, with no condition
    on the terms (they may hold both infinities: scaling by a nonnegative real keeps each term's sign and infinity,
    and by zero the law is `0 = 0`).
  · `shapeCast_column`: an `[a]` vector viewed as the column `[a, 1]`, read at an entry.
  · `broadcastTo_column`: a column `[a, 1]` laid across `b` columns to `[a, b]`, read at an entry.
  · `rowSum`: the f32 lane sum of an `[n, w]` value over its second axis from the zero word, read at a row, as a
    sum over `Fin w`.
  Indices are built with `ValueIdx.ix1` / `ix2`, so every coordinate has a literal `Fin` type.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibKeepdims

open Idealize.ShloMosaic Idealize.ShloMosaic.ValueIdx

/-- A finite nonnegative extended real moves inside a finite sum of extended reals, whatever the terms are. -/
theorem mul_sum_of_nonneg_of_ne_top {ι : Type*} {a : EReal} (ha : 0 ≤ a) (ha' : a ≠ ⊤) (s : Finset ι) (f : ι → EReal) :
    a * ∑ k ∈ s, f k = ∑ k ∈ s, a * f k := by
  classical
  induction s using Finset.induction_on with
  | empty => simp
  | insert b s hb ih =>
    rw [Finset.sum_insert hb, Finset.sum_insert hb, EReal.left_distrib_of_nonneg_of_ne_top ha ha', ih]

/-- An `[a]` vector cast to the column `[a, 1]` reads, at `(i, u)`, the vector at `i`. -/
theorem shapeCast_column {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry `p`. -/
theorem broadcastTo_column {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The f32 lane sum of an `[n, w]` value over its second axis, from the zero word, at row `p`: the sum of that row's
    `w` entries. (Apply it in term mode — `refine (rowSum …).trans ?_`, `congrArg` — against a printed payload: the
    printed proof arguments are spelt differently from a lemma's, which `rw` and `simp` do not see through.) -/
theorem rowSum {n w : ℕ} (v : FVec Ideal (⟨2, ![n, w]⟩ : Shape) .f32) (h : Shape.Reduces (⟨2, ![n, w]⟩ : Shape) [1] (⟨1, ![n]⟩ : Shape))
    (hφ : FKind.Formats .f32) (hacc : (0x00000000#32 : BitVec 32) = FKind.add.neutral .f32 hφ) (p : Fin n) :
    multiReduction .add [1] (⟨1, ![n]⟩ : Shape) v 0x00000000#32 h hφ hacc (ix1 p) = ∑ d : Fin w, v (ix2 p d) := by
  refine (Ideal.multiReduction_add_single v _ h hφ hacc (ix1 p)).trans ?_
  exact Finset.sum_congr rfl fun d _ => congrArg v (funext fun a => Fin.ext (by match a with | ⟨0, _⟩ => rfl | ⟨1, _⟩ => rfl))

end Cert.LibKeepdims

end
-- ==== Proof.PoolRows.lean ====
/-
  The pooling region read as one function of the array it is entered with.

  Region 0 walks the [4096, 16384] array in 16 blocks of 256 rows. At each block it sums every row over its
  16384 entries, views the 256 sums as a [256, 1] column and multiplies each by the value of the float word
  0x38800000; the column is written back to rows 256·t … 256·t + 255 of the [4096, 1] output. The blocks tile
  the output, so after the region the output column holds, at row r,

      (Σ_{k < 16384} x[r, k]) · ofBits(0x38800000),

  where x is the input array as the region finds it.
-/
import proofs.«156370_j33706903339438_1_alg».proof.Proof.Gen.KernelIdeal.Frame
import proofs.«156370_j33706903339438_1_alg».proof.Proof.LibKeepdims
import Idealize.ShloMosaic.Lib.ValueIdx
import Idealize.ShloMosaic.Lib.Pipeline.Value
import Idealize.ShloMosaic.PureOps.Ideal.Laws

set_option maxRecDepth 16384

noncomputable section

namespace Cert.KernelIdeal.PoolRows

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The payload at an entry of the block -/

/-- What the body stores at entry `(p, u)` of its [256, 1] block: the sum of row `p` of the [256, 16384] block it
    loaded, times the value of the float word. -/
theorem pay_apply (x0 : Vec Ideal S256x16384 .f32) (p : Fin 256) (u : Fin 1) :
    k0_pay1 (F := Ideal) x0 (ix2 p u) = (∑ d : Fin 16384, x0 (ix2 p d)) * Ideal.ofBits .f32 0x38800000#32 := by
  unfold k0_pay1
  refine (mulf_apply _ _ (ix2 p u)).trans ?_
  have e1 : shapeCast S256x1 (multiReduction (F := Ideal) .add [1] S256 (shapeCast S256x16384 x0 shapeCasts_S256x16384_S256x16384)
      0x00000000#32 reduces_S256x16384_S256 (.inl rfl) rfl) shapeCasts_S256_S256x1 (ix2 p u) = ∑ d : Fin 16384, x0 (ix2 p d) := by
    refine (Cert.LibKeepdims.shapeCast_column _ _ p u).trans ?_
    refine (Cert.LibKeepdims.rowSum _ _ _ _ p).trans ?_
    rw [shapeCast_self]
  exact congrArg (· * Ideal.ofBits .f32 0x38800000#32) e1

/-! ## The printed index maps, over the grid -/

theorem zero_offsets : (![0, 0] : Fin 2 → Nat) = fun _ => 0 := funext fun a => by fin_cases a <;> rfl

/-- At grid point `t` both windows sit at block row `t`, block column 0 (decided over the 16 points). -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-! ## The whole-array function -/

/-- The [4096, 1] column of scaled row sums of a [4096, 16384] array. -/
def scaledRowSums (xf : S4096x16384.Idx → EReal) : S4096x1.Idx → EReal :=
  fun i => (∑ k : Fin 16384, xf (ix2 ⟨(i 0).val, (i 0).isLt⟩ k)) * Ideal.ofBits .f32 0x38800000#32

/-- What point `t` writes back is block `t` of the scaled row sums of the array the region is entered with. -/
theorem flushed_rows (c : Dev nD) (t : Fin cfg0.N) :
    (dat0 (F := Ideal) V c).flushed 1 t
      = ((cfg0.win 1).blk t).view.read (Elt Ideal) (scaledRowSums (V c main_v0 : S4096x16384.Idx → EReal)) := by
  show (cfg0.win 1).cut (grid0.coords t) ((dat0 (F := Ideal) V c).after 1 t) = _
  rw [after0_1]
  unfold out0_1
  rw [View.canon_unit_zero zero_offsets]
  simp only [View.ld_unit_zero (S := S256x16384) zero_offsets]
  obtain ⟨e0, e1, e2, e3⟩ := block_index t
  funext j
  obtain ⟨p, u, rfl⟩ : ∃ (p : Fin 256) (u : Fin 1), j = ix2 p u :=
    ⟨⟨(j 0).val, (j 0).isLt⟩, ⟨(j 1).val, (j 1).isLt⟩, eq_ix2 j⟩
  show k0_pay1 (F := Ideal) (iblk0 V c 0 t) (ix2 p u)
    = scaledRowSums (V c main_v0 : S4096x16384.Idx → EReal) (((cfg0.win 1).blk t).view.emb (ix2 p u))
  refine (pay_apply (iblk0 V c 0 t) p u).trans ?_
  unfold scaledRowSums
  refine congrArg (· * Ideal.ofBits .f32 0x38800000#32) (Finset.sum_congr rfl fun d _ => ?_)
  show (V c main_v0 : S4096x16384.Idx → EReal) (((cfg0.win 0).blk t).view.emb (ix2 p d)) = _
  refine congrArg (V c main_v0 : S4096x16384.Idx → EReal) (funext fun a => Fin.ext ?_)
  match a with
  | ⟨0, _⟩ =>
    show win0_0.index t (0 : Fin 2) * 256 + 1 * p.val = win0_1.index t (0 : Fin 2) * 256 + 1 * p.val
    omega
  | ⟨1, _⟩ =>
    show win0_0.index t (1 : Fin 2) * 16384 + 1 * d.val = d.val
    omega

/-! ## The blocks tile the column -/

/-- A row of the column is in point `t`'s block iff each coordinate is in the block's range on its axis. -/
theorem mem_rows (t : Fin cfg0.N) (i : S4096x1.Idx) :
    i ∈ ((cfg0.win 1).blk t).view.set ↔ ∀ a : Fin 2, win0_1.index t a * S256x1.size a ≤ (i a).val
      ∧ (i a).val < win0_1.index t a * S256x1.size a + S256x1.size a := by
  show i ∈ ((View.whole main_v1).slice (win0_1.rect t)).set ↔ _
  rw [View.set_slice_whole, Rect.mem_set_unit]
  exact Iff.rfl

/-- Row `r` of the column is in the block of point `r / 256`, which writes back. -/
theorem rows_covered (i : S4096x1.Idx) :
    ∃ t : Fin cfg0.N, (cfg0.win 1).flush t = true ∧ i ∈ ((cfg0.win 1).blk t).view.set := by
  have hi0 : (i 0).val < 4096 := (i 0).isLt
  have hi1 : (i 1).val < 1 := (i 1).isLt
  have hN : (i 0).val / 256 < cfg0.N := by show (i 0).val / 256 < 16; omega
  obtain ⟨e0, e1, e2, e3⟩ := block_index ⟨(i 0).val / 256, hN⟩
  refine ⟨⟨(i 0).val / 256, hN⟩, flush0_1 _, ?_⟩
  rw [mem_rows]
  intro a
  match a with
  | ⟨0, _⟩ =>
    show win0_1.index ⟨(i 0).val / 256, hN⟩ (0 : Fin 2) * 256 ≤ (i 0).val
      ∧ (i 0).val < win0_1.index ⟨(i 0).val / 256, hN⟩ (0 : Fin 2) * 256 + 256
    have q : win0_1.index ⟨(i 0).val / 256, hN⟩ (0 : Fin 2) = (i 0).val / 256 := e2
    omega
  | ⟨1, _⟩ =>
    show win0_1.index ⟨(i 0).val / 256, hN⟩ (1 : Fin 2) * 1 ≤ (i 1).val
      ∧ (i 1).val < win0_1.index ⟨(i 0).val / 256, hN⟩ (1 : Fin 2) * 1 + 1
    omega

/-! ## The column after the region -/

/-- After region 0 the output column is the scaled row sums of the input array as the region finds it. -/
theorem column_after (c : Dev nD) :
    (dat0 (F := Ideal) V c).arrAt 1 cfg0.N = scaledRowSums (V c main_v0 : S4096x16384.Idx → EReal) :=
  (dat0 (F := Ideal) V c).arrAt_eq_of_cover 1 (scaledRowSums (V c main_v0 : S4096x16384.Idx → EReal))
    (fun t _ => flushed_rows V c t) rows_covered

theorem rows_mean (c : Dev nD) (xf : S4096x16384.Idx → EReal) (hx : V c main_v0 = xf) (r : Fin 4096) (u : Fin 1) :
    ((dat0 (F := Ideal) V c).arrAt 1 cfg0.N : S4096x1.Idx → EReal) (ix2 r u)
      = (∑ k : Fin 16384, xf (ix2 r k)) * Ideal.ofBits .f32 0x38800000#32 := by
  subst hx
  rw [column_after]
  rfl

end Cert.KernelIdeal.PoolRows

end
-- ==== Proof.LibRowDot.lean ====
/-
  The product of ROWS BY ROWS read at an entry on the extended reals: an [m, k] factor against an [n, k] factor, both
  contracted along their second axis (the product of A with the transpose of B, as a linear layer spells it with its
  weight stored [out, in]). Into a zero accumulator, entry (a, b) is the sum over c of A(a, c) · B(b, c).
-/
import Idealize.ShloMosaic.Lib.ValueIdx
import Idealize.ShloMosaic.PureOps.Ideal.Laws

noncomputable section

open scoped BigOperators

namespace Cert.RowDot

open Idealize.ShloMosaic Idealize.ShloMosaic.ValueIdx

/-- The dimension numbers of the product of rows by rows: both factors contracted along axis 1. -/
abbrev rowDot (m n k : Nat) (wf : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ where
  lhsContracting := [1]
  rhsContracting := [1]
  lhsNonContracting := [0]
  rhsNonContracting := [0]
  lhsBatch := []
  rhsBatch := []
  wf := wf

/-- Rows by rows, into the zero accumulator: entry (a, b) is the sum over c of A(a, c) · B(b, c). -/
theorem matmul_rowDot_apply {m n k : Nat} {φ₁ φ₂ : FTy}
    (wf : DotDims.WF ⟨2, ![m, k]⟩ ⟨2, ![n, k]⟩ ⟨2, ![m, n]⟩ [1] [1] [0] [0] [] []) (prec : Option ContractPrecision)
    (A : FVec Ideal ⟨2, ![m, k]⟩ φ₁) (B : FVec Ideal ⟨2, ![n, k]⟩ φ₂) (a : Fin m) (b : Fin n) :
    matmul (rowDot m n k wf) prec A B (constant ⟨2, ![m, n]⟩ .f32 0x00000000#32) (ix2 a b)
      = ∑ c : Fin k, A (ix2 a c) * B (ix2 b c) := by
  show FloatOps.matmul (rowDot m n k wf) prec A B (constant ⟨2, ![m, n]⟩ .f32 0x00000000#32) (ix2 a b) = _
  rw [Ideal.matmul_constant_zero_apply, ← Equiv.sum_comp (contrEquiv1 (rowDot m n k wf) k rfl rfl).symm]
  refine Finset.sum_congr rfl fun c _ => ?_
  have c2 := contrEquiv1_symm_val (rowDot m n k wf) k rfl rfl c
  have l2 : (rowDot m n k wf).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (rowDot m n k wf).rhsIdx (ix2 a b) ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowDot

end
-- ==== Proof.GateBlock.lean ====
/-
  The gate of a squeeze-and-excitation block, read off the second of the three regions.

  The region has one grid point and every window's block is its whole array, so when the region ends its
  [16, 256] output array is the body's value on the five arrays the region was entered with: the pooled column s
  (viewed [16, 256]), the first layer's weight w1 [16, 256] and bias b1 [16], the second layer's weight w2 [256, 16]
  and bias b2 [256]. At entry (b, e) that value is

      logistic( Σ_j max( Σ_d s(b, d) · w1(j, d) + b1(j), 0 ) · w2(e, j) + b2(e) ),

  the logistic function of the second linear layer applied to the first one clamped below at zero, both layers
  with their weights stored [out, in].
-/
import proofs.«156370_j33706903339438_1_alg».proof.Proof.Gen.KernelIdeal.Frame
import proofs.«156370_j33706903339438_1_alg».proof.Proof.LibRowDot
import proofs.«156370_j33706903339438_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.GateBlock

open Cert.KernelIdeal Cert.KernelIdeal.Gen
open Idealize.ShloMosaic Idealize.ShloMosaic.ValueIdx Idealize.ShloMosaic.TcCoe
open Idealize.SL.Sem

/-! ## The body's value at an entry -/

/-- An [n] vector viewed as the row [1, n] reads, at (u, i), the vector at i. -/
theorem shapeCast_row {α : Type} {n : ℕ} (x : (⟨1, ![n]⟩ : Shape).Idx → α) (h : (⟨1, ![n]⟩ : Shape).ShapeCasts ⟨2, ![1, n]⟩)
    (u : Fin 1) (i : Fin n) : shapeCast ⟨2, ![1, n]⟩ x h (ix2 u i) = x (ix1 i) :=
  shapeCast_apply x h _ _ (by
    have hu : u.val = 0 := by omega
    rw [Shape.rowMajor_val_two, Shape.rowMajor_val_one]
    show i.val = u.val * n + i.val
    rw [hu, Nat.zero_mul, Nat.zero_add])

/-- A row [1, n] repeated down m rows to [m, n] reads, at (p, q), the row's entry q. -/
theorem broadcastTo_row {α : Type} {m n : ℕ} (v : (⟨2, ![1, n]⟩ : Shape).Idx → α) (h : (⟨2, ![1, n]⟩ : Shape).Broadcasts ⟨2, ![m, n]⟩)
    (p : Fin m) (q : Fin n) : broadcastTo ⟨2, ![m, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- A bias vector [n] added to every row of an [m, n] value reads, at (p, q), the vector at q. -/
theorem bias_row {α : Type} {m n : ℕ} (x : (⟨1, ![n]⟩ : Shape).Idx → α) (h : (⟨1, ![n]⟩ : Shape).ShapeCasts ⟨2, ![1, n]⟩)
    (h' : (⟨2, ![1, n]⟩ : Shape).Broadcasts ⟨2, ![m, n]⟩) (p : Fin m) (q : Fin n) :
    broadcastTo ⟨2, ![m, n]⟩ (shapeCast ⟨2, ![1, n]⟩ x h) h' (ix2 p q) = x (ix1 q) :=
  (broadcastTo_row _ h' p q).trans (shapeCast_row x h 0 q)

/-- The gate at entry (b, e): the logistic function of the second linear layer (weights [256, 16], bias [256]) applied
    to the first one (weights [16, 256], bias [16]) clamped below at zero, on row b of the pooled values. -/
theorem gate_entry (s w1 : S16x256.Idx → EReal) (b1 : S16.Idx → EReal) (w2 : S256x16.Idx → EReal) (b2 : S256.Idx → EReal)
    (b : Fin 16) (e : Fin 256) :
    k1_pay1 (F := Ideal) s w1 b1 w2 b2 (ix2 b e)
      = Ideal.logistic ((∑ j : Fin 16, max ((∑ d : Fin 256, s (ix2 b d) * w1 (ix2 j d)) + b1 (ix1 j)) 0 * w2 (ix2 e j)) + b2 (ix1 e)) := by
  unfold k1_pay1
  show Ideal.logistic (_ + _) = Ideal.logistic (_ + _)
  refine congrArg Ideal.logistic (congrArg₂ (· + ·) ?_ (bias_row b2 _ _ b e))
  refine (RowDot.matmul_rowDot_apply Facts₀.dot_S16x16_S256x16_S16x256_1_1_0_0_n_n_wf none _ w2 b e).trans ?_
  refine Finset.sum_congr rfl fun j _ => congrArg (· * w2 (ix2 e j)) ?_
  show max (_ + _) (Ideal.ofBits .f32 0x00000000#32) = max _ 0
  rw [Ideal.ofBits_zero_f32]
  refine congrArg (max · 0) (congrArg₂ (· + ·) ?_ (bias_row b1 _ _ b j))
  refine (RowDot.matmul_rowDot_apply Facts₀.dot_S16x256_S16x256_S16x16_1_1_0_0_n_n_wf none _ w1 b j).trans ?_
  exact Finset.sum_congr rfl fun d _ => congrArg (· * w1 (ix2 j d)) (congrFun (shapeCast_self s _) (ix2 b d))

/-! ## From the one block to the array -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The six index maps are constant zero: at the grid's point every window's block index is 0 on every axis. -/
theorem index_zero : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0 :=
  (by decide +kernel : ∀ t : Fin grid1.N, _)

/-- The pooled values' block is their whole [16, 256] array. -/
theorem block_pooled (c : Dev nD) (t : Fin cfg1.N) : (iblk1 (F := Ideal) V c 0 t : S16x256.Idx → EReal) = V c main_v2 := by
  obtain ⟨e0, e1, -⟩ := index_zero t
  funext j
  show V c main_v2 (((cfg1.win 0).blk t).view.emb j) = V c main_v2 j
  refine congrArg (V c main_v2) (funext fun a => Fin.ext ?_)
  match a with
  | ⟨0, _⟩ => show win1_0.index t (0 : Fin 2) * 16 + 1 * (j 0).val = (j 0).val; rw [e0]; omega
  | ⟨1, _⟩ => show win1_0.index t (1 : Fin 2) * 256 + 1 * (j 1).val = (j 1).val; rw [e1]; omega

/-- The first layer's weight block is its whole [16, 256] array. -/
theorem block_w1 (c : Dev nD) (t : Fin cfg1.N) : (iblk1 (F := Ideal) V c 1 t : S16x256.Idx → EReal) = V c main_arg1 := by
  obtain ⟨-, -, e0, e1, -⟩ := index_zero t
  funext j
  show V c main_arg1 (((cfg1.win 1).blk t).view.emb j) = V c main_arg1 j
  refine congrArg (V c main_arg1) (funext fun a => Fin.ext ?_)
  match a with
  | ⟨0, _⟩ => show win1_1.index t (0 : Fin 2) * 16 + 1 * (j 0).val = (j 0).val; rw [e0]; omega
  | ⟨1, _⟩ => show win1_1.index t (1 : Fin 2) * 256 + 1 * (j 1).val = (j 1).val; rw [e1]; omega

/-- The first layer's bias block is its whole [16] array. -/
theorem block_b1 (c : Dev nD) (t : Fin cfg1.N) : (iblk1 (F := Ideal) V c 2 t : S16.Idx → EReal) = V c main_arg2 := by
  obtain ⟨-, -, -, -, e0, -⟩ := index_zero t
  funext j
  show V c main_arg2 (((cfg1.win 2).blk t).view.emb j) = V c main_arg2 j
  refine congrArg (V c main_arg2) (funext fun a => Fin.ext ?_)
  match a with
  | ⟨0, _⟩ => show win1_2.index t (0 : Fin 1) * 16 + 1 * (j 0).val = (j 0).val; rw [e0]; omega

/-- The second layer's weight block is its whole [256, 16] array. -/
theorem block_w2 (c : Dev nD) (t : Fin cfg1.N) : (iblk1 (F := Ideal) V c 3 t : S256x16.Idx → EReal) = V c main_arg3 := by
  obtain ⟨-, -, -, -, -, e0, e1, -⟩ := index_zero t
  funext j
  show V c main_arg3 (((cfg1.win 3).blk t).view.emb j) = V c main_arg3 j
  refine congrArg (V c main_arg3) (funext fun a => Fin.ext ?_)
  match a with
  | ⟨0, _⟩ => show win1_3.index t (0 : Fin 2) * 256 + 1 * (j 0).val = (j 0).val; rw [e0]; omega
  | ⟨1, _⟩ => show win1_3.index t (1 : Fin 2) * 16 + 1 * (j 1).val = (j 1).val; rw [e1]; omega

/-- The second layer's bias block is its whole [256] array. -/
theorem block_b2 (c : Dev nD) (t : Fin cfg1.N) : (iblk1 (F := Ideal) V c 4 t : S256.Idx → EReal) = V c main_arg4 := by
  obtain ⟨-, -, -, -, -, -, -, e0, -⟩ := index_zero t
  funext j
  show V c main_arg4 (((cfg1.win 4).blk t).view.emb j) = V c main_arg4 j
  refine congrArg (V c main_arg4) (funext fun a => Fin.ext ?_)
  match a with
  | ⟨0, _⟩ => show win1_4.index t (0 : Fin 1) * 256 + 1 * (j 0).val = (j 0).val; rw [e0]; omega

/-- What the point writes back is its block of the body's value on the five arrays the region was entered with. -/
theorem flushed_gate (c : Dev nD) (t : Fin cfg1.N) :
    (dat1 (F := Ideal) V c).flushed 5 t
      = ((cfg1.win 5).blk t).view.read (Elt Ideal)
          (k1_pay1 (F := Ideal) (V c main_v2) (V c main_arg1) (V c main_arg2) (V c main_arg3) (V c main_arg4)) := by
  show (cfg1.win 5).cut (grid1.coords t) ((dat1 V c).after 5 t) = _
  rw [after1_5]
  unfold out1_5
  rw [View.canon_unit_zero zero2]
  simp only [View.ld_unit_zero (S := S16x256) zero2, View.ld_unit_zero (S := S16) zero1,
    View.ld_unit_zero (S := S256x16) zero2, View.ld_unit_zero (S := S256) zero1]
  rw [block_pooled V c t, block_w1 V c t, block_b1 V c t, block_w2 V c t, block_b2 V c t]
  obtain ⟨-, -, -, -, -, -, -, -, e0, e1⟩ := index_zero t
  funext j
  show k1_pay1 (F := Ideal) (V c main_v2) (V c main_arg1) (V c main_arg2) (V c main_arg3) (V c main_arg4) _
    = k1_pay1 (F := Ideal) (V c main_v2) (V c main_arg1) (V c main_arg2) (V c main_arg3) (V c main_arg4) (((cfg1.win 5).blk t).view.emb j)
  refine congrArg (k1_pay1 (F := Ideal) (V c main_v2) (V c main_arg1) (V c main_arg2) (V c main_arg3) (V c main_arg4))
    (funext fun a => Fin.ext ?_)
  match a with
  | ⟨0, _⟩ => show (j 0).val = win1_5.index t (0 : Fin 2) * 16 + 1 * (j 0).val; rw [e0]; omega
  | ⟨1, _⟩ => show (j 1).val = win1_5.index t (1 : Fin 2) * 256 + 1 * (j 1).val; rw [e1]; omega

/-- An index of the output array is in the point's block iff each coordinate is in the block's range on its axis. -/
theorem mem_block (t : Fin cfg1.N) (i : S16x256.Idx) :
    i ∈ ((cfg1.win 5).blk t).view.set ↔ ∀ a : Fin 2, win1_5.index t a * S16x256.size a ≤ (i a).val
      ∧ (i a).val < win1_5.index t a * S16x256.size a + S16x256.size a := by
  show i ∈ ((View.whole main_v3).slice (win1_5.rect t)).set ↔ _
  rw [View.set_slice_whole, Rect.mem_set_unit]
  exact Iff.rfl

/-- The one point's block is the whole output array. -/
theorem covered (i : S16x256.Idx) : ∃ t : Fin cfg1.N, (cfg1.win 5).flush t = true ∧ i ∈ ((cfg1.win 5).blk t).view.set := by
  refine ⟨t1_0, flush1_5 t1_0, ?_⟩
  rw [mem_block]
  obtain ⟨-, -, -, -, -, -, -, -, e0, e1⟩ := index_zero t1_0
  have h0 : (i 0).val < 16 := (i 0).isLt
  have h1 : (i 1).val < 256 := (i 1).isLt
  intro a
  match a with
  | ⟨0, _⟩ => show win1_5.index t1_0 (0 : Fin 2) * 16 ≤ (i 0).val ∧ (i 0).val < win1_5.index t1_0 (0 : Fin 2) * 16 + 16; rw [e0]; omega
  | ⟨1, _⟩ => show win1_5.index t1_0 (1 : Fin 2) * 256 ≤ (i 1).val ∧ (i 1).val < win1_5.index t1_0 (1 : Fin 2) * 256 + 256; rw [e1]; omega

/-- After the region the [16, 256] output array is the body's value on the five arrays the region was entered with. -/
theorem gate_block (c : Dev nD) :
    ((dat1 (F := Ideal) V c).arrAt 5 cfg1.N : S16x256.Idx → EReal)
      = k1_pay1 (F := Ideal) (V c main_v2) (V c main_arg1) (V c main_arg2) (V c main_arg3) (V c main_arg4) :=
  (dat1 (F := Ideal) V c).arrAt_eq_of_cover 5 _ (fun t _ => flushed_gate V c t) covered

end Cert.KernelIdeal.GateBlock

end
-- ==== Proof.ScaleRows.lean ====
/-
  The third region of the gate multiplies every row of the [4096, 16384] array by that row's entry of the
  [4096, 1] gate column. After the region, the output array holds at (r, k) the product of the entry (r, k) of
  the array the first window reads and the entry (r, 0) of the column the second window reads.

  The grid has 32 points; point t handles rows 128·t … 128·t + 127: all 16384 columns of those rows of the input
  and of the output, and the same rows of the column. Inside a block, entry (p, q) of what is stored is the
  input block's entry (p, q) times the column block's entry (p, 0). Row r lies in the block of point r / 128,
  so the 32 blocks cover the output array and the array is one function of the two arrays read.
-/
import proofs.«156370_j33706903339438_1_alg».proof.Proof.Gen.KernelIdeal.Frame
import proofs.«156370_j33706903339438_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.ScaleRows

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-block access, as the constant function. -/
theorem zero_offsets : (![0, 0] : Fin 2 → Nat) = fun _ => 0 := funext fun a => by fin_cases a <;> rfl

/-- The whole output array as one function of the array and the column: entry `i` is the array's entry `i` times
    the column's entry in the same row. -/
abbrev scaled (xf : S4096x16384.Idx → EReal) (gf : S4096x1.Idx → EReal) : S4096x16384.Idx → EReal :=
  fun i => xf i * gf (ix2 ⟨(i 0).val, (i 0).isLt⟩ (0 : Fin 1))

/-- Inside a block: entry `(p, q)` of what the body stores is the input block's entry `(p, q)` times the column
    block's entry `(p, 0)`. -/
theorem stored_apply (x0 : Vec Ideal S128x16384 .f32) (x1 : Vec Ideal S128x1 .f32) (p : Fin 128) (q : Fin 16384) :
    k2_pay1 (F := Ideal) x0 x1 (ix2 p q) = x0 (ix2 p q) * x1 (ix2 p (0 : Fin 1)) := by
  unfold k2_pay1
  rw [mulf_apply, shapeCast_self, shapeCast_self]
  exact congrArg (fun z => x0 (ix2 p q) * z) (LibKeepdims.broadcastTo_column x1 _ p q)

/-- The block indices at point `t`, decided over the 32 points: all three windows sit at block row `t` and block
    column 0. -/
theorem block_indices : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- `scaled` read at an index, from an equal index of the array and the column index of the same row. -/
theorem scaled_congr (xf : S4096x16384.Idx → EReal) (gf : S4096x1.Idx → EReal) (i i' : S4096x16384.Idx) (u : S4096x1.Idx)
    (h : i' = i) (hu : u = ix2 ⟨(i 0).val, (i 0).isLt⟩ (0 : Fin 1)) : xf i' * gf u = scaled xf gf i := by
  subst h; subst hu; rfl

/-- What point `t` writes back is block `t` of `scaled` of the two arrays the region reads. -/
theorem written_back (c : Dev nD) (t : Fin cfg2.N) :
    (dat2 (F := Ideal) V c).flushed 2 t
      = ((cfg2.win 2).blk t).view.read (Elt Ideal) (scaled (V c main_v0) (V c main_v4)) := by
  show (cfg2.win 2).cut (grid2.coords t) ((dat2 (F := Ideal) V c).after 2 t) = _
  rw [after2_2]
  unfold out2_2
  rw [View.canon_unit_zero zero_offsets]
  simp only [View.ld_unit_zero (S := S128x16384) zero_offsets, View.ld_unit_zero (S := S128x1) zero_offsets]
  obtain ⟨e00, e01, e10, e11, e20, e21⟩ := block_indices t
  funext j
  obtain ⟨p, q, rfl⟩ : ∃ (p : Fin 128) (q : Fin 16384), j = ix2 p q :=
    ⟨⟨(j 0).val, (j 0).isLt⟩, ⟨(j 1).val, (j 1).isLt⟩, funext fun a => by match a with | ⟨0, _⟩ => rfl | ⟨1, _⟩ => rfl⟩
  show k2_pay1 (F := Ideal) (iblk2 V c 0 t) (iblk2 V c 1 t) (ix2 p q)
      = scaled (V c main_v0) (V c main_v4) (((cfg2.win 2).blk t).view.emb (ix2 p q))
  refine (stored_apply (iblk2 V c 0 t) (iblk2 V c 1 t) p q).trans ?_
  have h0 : ((cfg2.win 0).blk t).view.emb (ix2 p q) = ((cfg2.win 2).blk t).view.emb (ix2 p q) := by
    funext a; apply Fin.ext
    match a with
    | ⟨0, _⟩ => show win2_0.index t (0 : Fin 2) * 128 + 1 * p.val = win2_2.index t (0 : Fin 2) * 128 + 1 * p.val; omega
    | ⟨1, _⟩ => show win2_0.index t (1 : Fin 2) * 16384 + 1 * q.val = win2_2.index t (1 : Fin 2) * 16384 + 1 * q.val; omega
  have h1 : ((cfg2.win 1).blk t).view.emb (ix2 p (0 : Fin 1))
      = ix2 ⟨((((cfg2.win 2).blk t).view.emb (ix2 p q)) 0).val, ((((cfg2.win 2).blk t).view.emb (ix2 p q)) 0).isLt⟩ (0 : Fin 1) := by
    funext a; apply Fin.ext
    match a with
    | ⟨0, _⟩ => show win2_1.index t (0 : Fin 2) * 128 + 1 * p.val = win2_2.index t (0 : Fin 2) * 128 + 1 * p.val; omega
    | ⟨1, _⟩ => show win2_1.index t (1 : Fin 2) * 1 + 1 * 0 = 0; omega
  exact scaled_congr (V c main_v0) (V c main_v4) (((cfg2.win 2).blk t).view.emb (ix2 p q))
    (((cfg2.win 0).blk t).view.emb (ix2 p q)) (((cfg2.win 1).blk t).view.emb (ix2 p (0 : Fin 1))) h0 h1

/-- An index of the output array is in point `t`'s block iff each coordinate is in the block's range on its axis. -/
theorem mem_block (t : Fin cfg2.N) (i : S4096x16384.Idx) :
    i ∈ ((cfg2.win 2).blk t).view.set ↔ ∀ a : Fin 2, win2_2.index t a * S128x16384.size a ≤ (i a).val ∧ (i a).val < win2_2.index t a * S128x16384.size a + S128x16384.size a := by
  show i ∈ ((View.whole main_v5).slice (win2_2.rect t)).set ↔ _
  rw [View.set_slice_whole, Rect.mem_set_unit]
  exact Iff.rfl

/-- Every index of the output array is in the block of the point its row divided by 128 names, and that point writes
    back. -/
theorem blocks_cover (i : S4096x16384.Idx) :
    ∃ t : Fin cfg2.N, (cfg2.win 2).flush t = true ∧ i ∈ ((cfg2.win 2).blk t).view.set := by
  have hi0 : (i 0).val < 4096 := (i 0).isLt
  have hi1 : (i 1).val < 16384 := (i 1).isLt
  have ht : (i 0).val / 128 < 32 := by omega
  refine ⟨⟨(i 0).val / 128, ht⟩, flush2_2 _, ?_⟩
  obtain ⟨-, -, -, -, e20, e21⟩ := block_indices ⟨(i 0).val / 128, ht⟩
  have e20' : win2_2.index ⟨(i 0).val / 128, ht⟩ (0 : Fin 2) = (i 0).val / 128 := e20
  rw [mem_block]
  intro a
  match a with
  | ⟨0, _⟩ =>
    show win2_2.index ⟨(i 0).val / 128, ht⟩ (0 : Fin 2) * 128 ≤ (i 0).val ∧ (i 0).val < win2_2.index ⟨(i 0).val / 128, ht⟩ (0 : Fin 2) * 128 + 128
    omega
  | ⟨1, _⟩ =>
    show win2_2.index ⟨(i 0).val / 128, ht⟩ (1 : Fin 2) * 16384 ≤ (i 1).val ∧ (i 1).val < win2_2.index ⟨(i 0).val / 128, ht⟩ (1 : Fin 2) * 16384 + 16384
    omega

/-- The output array after the region is `scaled` of the two arrays the region reads. -/
theorem array_after (c : Dev nD) :
    (dat2 (F := Ideal) V c).arrAt 2 cfg2.N = scaled (V c main_v0) (V c main_v4) :=
  (dat2 (F := Ideal) V c).arrAt_eq_of_cover 2 (scaled (V c main_v0) (V c main_v4)) (fun t _ => written_back V c t) blocks_cover

/-- After the region the output array holds, at `(r, k)`, the entry `(r, k)` of the array the first window reads
    times the entry `(r, 0)` of the column the second window reads. -/
theorem rows_scaled (c : Dev nD) (xf : S4096x16384.Idx → EReal) (gf : S4096x1.Idx → EReal) (hx : V c main_v0 = xf) (hg : V c main_v4 = gf)
    (r : Fin 4096) (k : Fin 16384) :
    ((dat2 (F := Ideal) V c).arrAt 2 cfg2.N : S4096x16384.Idx → EReal) (ix2 r k) = xf (ix2 r k) * gf (ix2 r (0 : Fin 1)) := by
  subst hx; subst hg
  rw [array_after V c]

end Cert.KernelIdeal.ScaleRows

end
-- ==== Proof.Rows.lean ====
/-
  Rows and channels. The tensor [16, 256, 128, 128] reshaped to [4096, 16384] puts channel (b, c) on row b·256 + c
  and position (h, w) on column h·128 + w; the column [4096, 1] reshaped to [16, 256] and back follows the same
  row number. A sum over a row's 16384 columns is the double sum over the positions (h, w).

  The mean: the kernel multiplies a row's sum by the float word of 2⁻¹⁴, the reference divides the same sum (taken
  from the float zero) by the float word of 16384. On the extended reals dividing by a nonzero real IS multiplying
  by its inverse, at every value including both infinities, so the two agree with no condition on the sum.
-/
import Idealize.ShloMosaic.PureOps.Ideal
import Idealize.ShloMosaic.Lib.Pipeline.Value
import Idealize.ShloMosaic.Lib.ValueIdx
import Idealize.ShloMosaic.Lib.IdealHost

noncomputable section

open scoped BigOperators

namespace Cert.Rows

open Idealize.ShloMosaic Idealize.ShloMosaic.ValueIdx

abbrev Tensor : Shape := ⟨4, ![16, 256, 128, 128]⟩
abbrev Flat : Shape := ⟨2, ![4096, 16384]⟩
abbrev Column : Shape := ⟨2, ![4096, 1]⟩
abbrev Channels : Shape := ⟨2, ![16, 256]⟩

/-- The row of channel (b, c). -/
def row (b : Fin 16) (c : Fin 256) : Fin 4096 := ⟨b.val * 256 + c.val, by omega⟩
/-- The column of position (h, w). -/
def col (h : Fin 128) (w : Fin 128) : Fin 16384 := ⟨h.val * 128 + w.val, by omega⟩

variable {α : Type}

/-- The tensor reshaped to rows, at row (b, c) and column (h, w), is the tensor at (b, c, h, w). -/
theorem flat_apply (x : Tensor.Idx → α) (hc : Tensor.ShapeCasts Flat) (b : Fin 16) (c : Fin 256) (h w : Fin 128) :
    shapeCast Flat x hc (ix2 (row b c) (col h w)) = x (ix4 b c h w) :=
  shapeCast_apply x hc _ _ (by
    rw [Shape.rowMajor_val_four, Shape.rowMajor_val_two]
    show ((b.val * 256 + c.val) * 128 + h.val) * 128 + w.val = (b.val * 256 + c.val) * 16384 + (h.val * 128 + w.val)
    omega)

/-- Rows reshaped back to the tensor, at (b, c, h, w), are the rows at row (b, c) and column (h, w). -/
theorem tensor_apply (y : Flat.Idx → α) (hc : Flat.ShapeCasts Tensor) (b : Fin 16) (c : Fin 256) (h w : Fin 128) :
    shapeCast Tensor y hc (ix4 b c h w) = y (ix2 (row b c) (col h w)) :=
  shapeCast_apply y hc _ _ (by
    rw [Shape.rowMajor_val_four, Shape.rowMajor_val_two]
    show (b.val * 256 + c.val) * 16384 + (h.val * 128 + w.val) = ((b.val * 256 + c.val) * 128 + h.val) * 128 + w.val
    omega)

/-- A column reshaped to one entry per channel, at (b, c), is the column at row (b, c). -/
theorem channels_apply (s : Column.Idx → α) (hc : Column.ShapeCasts Channels) (b : Fin 16) (c : Fin 256) :
    shapeCast Channels s hc (ix2 b c) = s (ix2 (row b c) (0 : Fin 1)) :=
  shapeCast_apply s hc _ _ (by
    rw [Shape.rowMajor_val_two, Shape.rowMajor_val_two]
    show (b.val * 256 + c.val) * 1 + 0 = b.val * 256 + c.val
    omega)

/-- One entry per channel reshaped to a column, at row (b, c), is the entry (b, c). -/
theorem column_apply (g : Channels.Idx → α) (hc : Channels.ShapeCasts Column) (b : Fin 16) (c : Fin 256) (u : Fin 1) :
    shapeCast Column g hc (ix2 (row b c) u) = g (ix2 b c) :=
  shapeCast_apply g hc _ _ (by
    have hu : u.val = 0 := by omega
    rw [Shape.rowMajor_val_two, Shape.rowMajor_val_two]
    show b.val * 256 + c.val = (b.val * 256 + c.val) * 1 + u.val
    omega)

/-- A sum over a row's columns is the sum over the positions (h, w). -/
theorem sum_cols {M : Type*} [AddCommMonoid M] (f : Fin 16384 → M) :
    ∑ k : Fin 16384, f k = ∑ p : Fin 128 × Fin 128, f (col p.1 p.2) := by
  refine (Fintype.sum_equiv (finProdFinEquiv (m := 128) (n := 128)) (fun p => f (col p.1 p.2)) f (fun p => ?_)).symm
  refine congrArg f (Fin.ext ?_)
  show p.1.val * 128 + p.2.val = p.2.val + 128 * p.1.val
  omega

/-- The float word of 16384 denotes 16384. -/
theorem word_16384 : Ideal.ofBits .f32 0x46800000#32 = ((16384 : ℝ) : EReal) := by
  simp [Ideal.ofBits, Ideal.ieee, -EReal.coe_mul]; norm_num

/-- The float word of 2⁻¹⁴ denotes 1/16384. -/
theorem word_inv_16384 : Ideal.ofBits .f32 0x38800000#32 = ((1 / 16384 : ℝ) : EReal) := by
  simp [Ideal.ofBits, Ideal.ieee, -EReal.coe_mul]; norm_num

/-- The mean both ways: a sum taken from the float zero and divided by the word of 16384 is the sum times the word of
    2⁻¹⁴, for every extended real sum. -/
theorem mean_eq (S : EReal) :
    Ideal.div (Ideal.ofBits .f32 0x00000000#32 + S) (Ideal.ofBits .f32 0x46800000#32) = S * Ideal.ofBits .f32 0x38800000#32 := by
  rw [Ideal.ofBits_zero_f32, zero_add, word_16384, word_inv_16384, Ideal.div_coe (by norm_num : (16384 : ℝ) ≠ 0)]

end Cert.Rows

end
-- ==== Proof.Gate.lean ====
/-
  The squeeze-and-excitation gate as one function of the five arguments.

  For an input x of shape [16, 256, 128, 128]: the mean of channel (b, c) is the sum of its 128·128 entries times
  2⁻¹⁴; the hidden layer is max(mean · w1ᵀ + b1, 0), sixteen numbers per batch entry; the gate is the logistic
  function of hidden · w2ᵀ + b2, one number per channel; the result is x with every channel scaled by its gate.
-/
import proofs.«156370_j33706903339438_1_alg».proof.Proof.Rows

noncomputable section

open scoped BigOperators

namespace Cert.Gate

open Idealize.ShloMosaic Idealize.ShloMosaic.ValueIdx Cert.Rows

abbrev Bias1 : Shape := ⟨1, ![16]⟩
abbrev Weight2 : Shape := ⟨2, ![256, 16]⟩
abbrev Bias2 : Shape := ⟨1, ![256]⟩

/-- The mean of each channel: the sum over the positions times the value of the float word of 2⁻¹⁴. -/
def mean (x : Tensor.Idx → EReal) : Channels.Idx → EReal := fun i =>
  (∑ p : Fin 128 × Fin 128, x (ix4 (⟨(i 0).val, (i 0).isLt⟩ : Fin 16) (⟨(i 1).val, (i 1).isLt⟩ : Fin 256) p.1 p.2))
    * Ideal.ofBits .f32 0x38800000#32

theorem mean_apply (x : Tensor.Idx → EReal) (b : Fin 16) (c : Fin 256) :
    mean x (ix2 b c) = (∑ p : Fin 128 × Fin 128, x (ix4 b c p.1 p.2)) * Ideal.ofBits .f32 0x38800000#32 := rfl

/-- The gate of channel e of batch entry b, from one number per channel. -/
def gate (s w1 : Channels.Idx → EReal) (b1 : Bias1.Idx → EReal) (w2 : Weight2.Idx → EReal) (b2 : Bias2.Idx → EReal)
    (b : Fin 16) (e : Fin 256) : EReal :=
  Ideal.logistic ((∑ j : Fin 16, max ((∑ d : Fin 256, s (ix2 b d) * w1 (ix2 j d)) + b1 (ix1 j)) 0 * w2 (ix2 e j)) + b2 (ix1 e))

/-- The input with every channel scaled by its gate. -/
def gated (x : Tensor.Idx → EReal) (w1 : Channels.Idx → EReal) (b1 : Bias1.Idx → EReal) (w2 : Weight2.Idx → EReal)
    (b2 : Bias2.Idx → EReal) : Tensor.Idx → EReal := fun i =>
  x i * gate (mean x) w1 b1 w2 b2 (⟨(i 0).val, (i 0).isLt⟩ : Fin 16) (⟨(i 1).val, (i 1).isLt⟩ : Fin 256)

theorem gated_apply (x : Tensor.Idx → EReal) (w1 : Channels.Idx → EReal) (b1 : Bias1.Idx → EReal) (w2 : Weight2.Idx → EReal)
    (b2 : Bias2.Idx → EReal) (b : Fin 16) (c : Fin 256) (h w : Fin 128) :
    gated x w1 b1 w2 b2 (ix4 b c h w) = x (ix4 b c h w) * gate (mean x) w1 b1 w2 b2 b c := rfl

end Cert.Gate

end
-- ==== Proof.KernelValue.lean ====
/-
  The kernel computes the gated input.

  Region 2's output at row (b, e), column (h, w) is the input there times region 1's gate at (b, e); region 1's gate
  is the gate function of what region 0 left, one number per channel; and region 0 left, at row (b, d), the sum of
  that row times 2⁻¹⁴, which is channel (b, d)'s mean because a row's columns are the channel's positions.
-/
import proofs.«156370_j33706903339438_1_alg».proof.Proof.Boundaries
import proofs.«156370_j33706903339438_1_alg».proof.Proof.PoolRows
import proofs.«156370_j33706903339438_1_alg».proof.Proof.GateBlock
import proofs.«156370_j33706903339438_1_alg».proof.Proof.ScaleRows
import proofs.«156370_j33706903339438_1_alg».proof.Proof.Gate

set_option maxRecDepth 16384

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Cert.Rows Cert.Gate Cert.KernelIdeal.Boundaries

variable (m : (ℓ : Loc nD τ sig) → Buf (Elt Ideal) ℓ) (ρ : Dev nD → PrngReg)

/-- The rows regions 0 and 2 read: the input reshaped. -/
abbrev rows (c : Dev nD) : Flat.Idx → EReal :=
  shapeCast S4096x16384 (m ((c : Thread nD τ).loc main_arg0)) shapeCasts_S16x256x128x128_S4096x16384

/-- Region 1 is entered with the channel means. -/
theorem pooled_eq (c : Dev nD) : V3 m ρ c main_v2 = mean (m ((c : Thread nD τ).loc main_arg0)) := by
  funext i
  obtain ⟨b, d, rfl⟩ : ∃ (b : Fin 16) (d : Fin 256), i = ix2 b d := ⟨i 0, i 1, eq_ix2 i⟩
  rw [pooled_at_region1, channels_apply, PoolRows.rows_mean (V1 m ρ) c (rows m c) (rows_at_region0 m ρ c), sum_cols, mean_apply]
  refine congrArg (· * _) (Finset.sum_congr rfl fun p _ => ?_)
  exact flat_apply _ _ b d p.1 p.2

/-- Region 1 leaves the gate function of the channel means and the four weight arguments. -/
theorem gate_eq (c : Dev nD) (b : Fin 16) (e : Fin 256) :
    ((dat1 (V3 m ρ) c).arrAt 5 cfg1.N : Channels.Idx → EReal) (ix2 b e)
      = gate (mean (m ((c : Thread nD τ).loc main_arg0))) (m ((c : Thread nD τ).loc main_arg1)) (m ((c : Thread nD τ).loc main_arg2))
          (m ((c : Thread nD τ).loc main_arg3)) (m ((c : Thread nD τ).loc main_arg4)) b e := by
  rw [GateBlock.gate_block, pooled_eq, w1_at_region1, b1_at_region1, w2_at_region1, b2_at_region1]
  exact GateBlock.gate_entry _ _ _ _ _ b e

/-- The result array, entry by entry. -/
theorem result_entry (c : Dev nD) (b : Fin 16) (e : Fin 256) (h w : Fin 128) :
    (W7 m ρ c (Proc.devRef .tc main_v6) : Tensor.Idx → EReal) (ix4 b e h w)
      = gated (m ((c : Thread nD τ).loc main_arg0)) (m ((c : Thread nD τ).loc main_arg1)) (m ((c : Thread nD τ).loc main_arg2))
          (m ((c : Thread nD τ).loc main_arg3)) (m ((c : Thread nD τ).loc main_arg4)) (ix4 b e h w) := by
  rw [result_eq, tensor_apply,
    ScaleRows.rows_scaled (V5 m ρ) c (rows m c) _ ((rows_at_region2 m ρ c).trans (rows_at_region0 m ρ c)) (gate_at_region2 m ρ c)]
  unfold rows
  rw [flat_apply, column_apply, gate_eq, gated_apply]

/-- The kernel's result is the gated input. -/
theorem result_eq_gated (c : Dev nD) :
    W7 m ρ c (Proc.devRef .tc main_v6)
      = gated (m ((c : Thread nD τ).loc main_arg0)) (m ((c : Thread nD τ).loc main_arg1)) (m ((c : Thread nD τ).loc main_arg2))
          (m ((c : Thread nD τ).loc main_arg3)) (m ((c : Thread nD τ).loc main_arg4)) :=
  funext fun i => by
    obtain ⟨b, e, h, w, rfl⟩ : ∃ (b : Fin 16) (e : Fin 256) (h w : Fin 128), i = ix4 b e h w := ⟨i 0, i 1, i 2, i 3, eq_ix4 i⟩
    exact result_entry m ρ c b e h w

end Cert.KernelIdeal.KernelValue

end
-- ==== Proof.LibSum23.lean ====
/-
  A reduction over the two trailing axes of a rank-4 array, read at a result index as a double sum.

  For a shape `[B, C, H, W]` reduced over its axes 2 and 3 to `[B, C]`, the source indices that drop to the result
  index `(b, c)` are exactly the indices `(b, c, h, w)`, one for each pair `(h, w)`. So an add-reduction read at
  `(b, c)` on the extended reals is the sum over the pairs `(h, w) : Fin H × Fin W` of the source at `(b, c, h, w)`:
  for the bare sum over the dropped set (`sum_filter_drop23`), for a vector add-reduction (`reduceAdd23`,
  `multiReduction_add23`) and for a host add-reduction from an initial value (`hostReduceAdd23`, `hostReduceAdd23_apply`).
  The extents are arbitrary, so the same statement serves a whole array and one block of it.
-/
import Idealize.ShloMosaic.PureOps.Ideal.Laws
import Idealize.ShloMosaic.Lib.ValueIdx
import Idealize.ShloMosaic.Lib.IdealHost

noncomputable section

open scoped BigOperators

namespace Idealize.ShloMosaic.Sum23

open Idealize.ShloMosaic Idealize.ShloMosaic.ValueIdx

variable {B C H W : ℕ}

/-- For any map to rank-2 indices that reads coordinates 0 and 1 of a rank-4 index, the indices sent to `(b, c)`
    are the indices `(b, c, h, w)`; the sum over them is re-indexed along `i ↦ (i 2, i 3)`, whose inverse is
    `(h, w) ↦ (b, c, h, w)`. -/
private theorem sum_filter_of_reads01 {α : Type*} [AddCommMonoid α]
    (drop : (⟨4, ![B, C, H, W]⟩ : Shape).Idx → (⟨2, ![B, C]⟩ : Shape).Idx)
    (hd : ∀ i, (drop i 0).val = (i 0).val ∧ (drop i 1).val = (i 1).val)
    (x : (⟨4, ![B, C, H, W]⟩ : Shape).Idx → α) (b : Fin B) (c : Fin C) :
    ∑ i ∈ Finset.univ.filter (fun i => drop i = ix2 b c), x i = ∑ p : Fin H × Fin W, x (ix4 b c p.1 p.2) := by
  -- an index sent to `(b, c)` has first coordinates `b` and `c`, so it is `(b, c, i 2, i 3)`
  have key : ∀ i, drop i = ix2 b c → ix4 b c (i 2) (i 3) = i := by
    intro i hi
    have h0 : (i 0).val = b.val := (hd i).1.symm.trans (congrArg (fun j => (j 0).val) hi)
    have h1 : (i 1).val = c.val := (hd i).2.symm.trans (congrArg (fun j => (j 1).val) hi)
    funext a
    match a with
    | ⟨0, _⟩ => exact Fin.ext h0.symm
    | ⟨1, _⟩ => exact Fin.ext h1.symm
    | ⟨2, _⟩ => rfl
    | ⟨3, _⟩ => rfl
  refine Finset.sum_nbij' (fun i => ((i 2, i 3) : Fin H × Fin W)) (fun p => ix4 b c p.1 p.2) ?_ ?_ ?_ ?_ ?_
  · intro i _; exact Finset.mem_univ _
  · intro p _
    refine Finset.mem_filter.2 ⟨Finset.mem_univ _, ?_⟩
    funext a
    match a with
    | ⟨0, _⟩ => exact Fin.ext (hd _).1
    | ⟨1, _⟩ => exact Fin.ext (hd _).2
  · intro i hi; exact key i (Finset.mem_filter.1 hi).2
  · intro p _; rfl
  · intro i hi; exact congrArg x (key i (Finset.mem_filter.1 hi).2).symm

/-- The indices dropping to `(b, c)`, summed, are the pairs `(h, w)`, summed. -/
theorem sum_filter_drop23 {α : Type*} [AddCommMonoid α]
    (h : (⟨4, ![B, C, H, W]⟩ : Shape).Reduces [2, 3] ⟨2, ![B, C]⟩)
    (x : (⟨4, ![B, C, H, W]⟩ : Shape).Idx → α) (b : Fin B) (c : Fin C) :
    ∑ i ∈ Finset.univ.filter (fun i => h.drop i = ix2 b c), x i = ∑ p : Fin H × Fin W, x (ix4 b c p.1 p.2) :=
  -- the kept axes of `[2, 3]` in rank 4 are 0 and 1, so the drop reads those two coordinates
  sum_filter_of_reads01 h.drop (fun _ => ⟨rfl, rfl⟩) x b c

/-- The same for the drop of a host reduction's shape fact. -/
theorem sum_filter_dropTo23 {α : Type*} [AddCommMonoid α]
    (h : (⟨4, ![B, C, H, W]⟩ : Shape).ReducesTo [2, 3] ⟨2, ![B, C]⟩)
    (x : (⟨4, ![B, C, H, W]⟩ : Shape).Idx → α) (b : Fin B) (c : Fin C) :
    ∑ i ∈ Finset.univ.filter (fun i => h.drop i = ix2 b c), x i = ∑ p : Fin H × Fin W, x (ix4 b c p.1 p.2) :=
  sum_filter_of_reads01 h.drop (fun _ => ⟨rfl, rfl⟩) x b c

/-- An add-reduction over axes 2 and 3 on the extended reals, at `(b, c)`. -/
theorem reduceAdd23 (h : (⟨4, ![B, C, H, W]⟩ : Shape).Reduces [2, 3] ⟨2, ![B, C]⟩)
    (x : (⟨4, ![B, C, H, W]⟩ : Shape).Idx → EReal) (b : Fin B) (c : Fin C) :
    Ideal.reduceAdd h x (ix2 b c) = ∑ p : Fin H × Fin W, x (ix4 b c p.1 p.2) :=
  -- the reduction at `(b, c)` is by definition the sum over the indices dropping to `(b, c)`
  sum_filter_drop23 h x b c

/-- A float `vector.multi_reduction <add>` over axes 2 and 3, read at `Ideal` at `(b, c)`. -/
theorem multiReduction_add23 {φ : FTy} (src : FVec Ideal (⟨4, ![B, C, H, W]⟩ : Shape) φ) (acc : BitVec φ.bits)
    (h : (⟨4, ![B, C, H, W]⟩ : Shape).Reduces [2, 3] ⟨2, ![B, C]⟩) (hφ : FKind.Formats φ)
    (hacc : acc = FKind.add.neutral φ hφ) (b : Fin B) (c : Fin C) :
    multiReduction .add [2, 3] (⟨2, ![B, C]⟩ : Shape) src acc h hφ hacc (ix2 b c)
      = ∑ p : Fin H × Fin W, src (ix4 b c p.1 p.2) :=
  -- a sum-reduction is the instance's add-reduction, whatever the accumulator's (neutral) pattern
  sum_filter_drop23 h src b c

/-- The host's add-reduction over axes 2 and 3 on the extended reals, at `(b, c)`: the initial value plus the double sum. -/
theorem hostReduceAdd23 (h' : (⟨4, ![B, C, H, W]⟩ : Shape).ReducesTo [2, 3] ⟨2, ![B, C]⟩)
    (x : (⟨4, ![B, C, H, W]⟩ : Shape).Idx → EReal) (init : EReal) (b : Fin B) (c : Fin C) :
    Ideal.hostReduceAdd h' x init (ix2 b c) = init + ∑ p : Fin H × Fin W, x (ix4 b c p.1 p.2) := by
  unfold Ideal.hostReduceAdd
  rw [sum_filter_dropTo23]

/-- The printed host operation `Host.reduceAdd` with a rank-0 initial value, read at `Ideal` at `(b, c)`. -/
theorem hostReduceAdd23_apply {φ : FTy} (x : FVec Ideal (⟨4, ![B, C, H, W]⟩ : Shape) φ)
    (init : FVec Ideal (⟨0, ![]⟩ : Shape) φ)
    (h' : (⟨4, ![B, C, H, W]⟩ : Shape).ReducesTo [2, 3] ⟨2, ![B, C]⟩) (hu : 0 < (⟨0, ![]⟩ : Shape).numel)
    (b : Fin B) (c : Fin C) :
    Host.reduceAdd x init h' hu (ix2 b c) = init ix0 + ∑ p : Fin H × Fin W, x (ix4 b c p.1 p.2) := by
  -- the rank-0 shape has one index, so the initial array's first element is its element at that index
  have e : Shape.Idx.first hu = ix0 := funext fun a => a.elim0
  rw [hostReduceAdd_apply, e]
  exact hostReduceAdd23 h' x (init ix0) b c

end Idealize.ShloMosaic.Sum23

end
-- ==== Proof.LibLogistic.lean ====
/-
  The logistic function spelt out in host operations, on the extended reals.

  On the host the logistic function of y is computed as one over (one plus the exponential of minus y): a negation, an
  exponential, an addition of the float one and a division into the float one. On the extended reals that expression IS
  the logistic function (0 at −∞, 1 at +∞, 1/(1+e^(−y)) at a real y), and the float word of one denotes the number one.
-/
import Idealize.ShloMosaic.PureOps.Ideal

noncomputable section

namespace Cert.LogisticSpelt

open Idealize.ShloMosaic

/-- The 32-bit float word of one denotes one. -/
theorem one_word : Ideal.ofBits .f32 0x3F800000#32 = 1 := by
  simp [Ideal.ofBits, Ideal.ieee, -EReal.coe_mul]; norm_num

/-- One over one plus the exponential of the negative, in the host's operations, is the logistic function. -/
theorem logistic_spelt (y : Ideal .f32) :
    FloatOps.hostDivf (1 : Ideal .f32) (FloatOps.addf 1 (FloatOps.hostUnary .exp (FloatOps.hostNegf y))) = Ideal.logistic y := rfl

/-- The same in a kernel's operations. -/
theorem logistic_spelt_kernel (y : Ideal .f32) :
    FloatOps.divf (1 : Ideal .f32) (FloatOps.addf 1 (FloatOps.exp (FloatOps.negf y))) = Ideal.logistic y := rfl

end Cert.LogisticSpelt

end
-- ==== Proof.RefSide.lean ====
/-
  The reference computes the gated input.

  Read one operation at a time, the reference's result at (b, c, h, w) is the input there times a number that depends
  on (b, c) only: one over one plus the exponential of minus y, with y the second linear layer applied to the clamped
  first one applied to the channel means, and a channel's mean the sum over its positions (taken from the float zero)
  divided by 16384. Two laws turn this into the gate function: that quotient is the sum times 2⁻¹⁴ on every extended
  real, and one over one plus the exponential of the negative is the logistic function.
-/
import proofs.«156370_j33706903339438_1_alg».proof.Proof.Gen.ReferenceIdeal.Read
import proofs.«156370_j33706903339438_1_alg».proof.Proof.LibSum23
import proofs.«156370_j33706903339438_1_alg».proof.Proof.LibLogistic
import proofs.«156370_j33706903339438_1_alg».proof.Proof.Gate

noncomputable section

open scoped BigOperators

namespace Cert.ReferenceIdeal.RefValue

open Cert.ReferenceIdeal Cert.ReferenceIdeal.Read Idealize.ShloMosaic Idealize.ShloMosaic.ValueIdx Cert.Rows Cert.Gate

/-- The reference's channel mean is the mean. -/
theorem mean_entry (x : (⟨S16x256x128x128, .f32⟩ : BufTy).Contents (Elt Ideal)) (b : Fin 16) (c : Fin 256) :
    val_main_v2 (F := Ideal) x (ix2 b c) = mean x (ix2 b c) := by
  rw [val_main_v2_apply, val_main_v1_apply, val_main_cst_0_apply, mean_apply]
  unfold val_main_v0
  rw [Sum23.hostReduceAdd23_apply]
  exact mean_eq _

theorem mean_eq_stage (x : (⟨S16x256x128x128, .f32⟩ : BufTy).Contents (Elt Ideal)) : val_main_v2 (F := Ideal) x = mean x :=
  funext fun i => by
    obtain ⟨b, c, rfl⟩ : ∃ (b : Fin 16) (c : Fin 256), i = ix2 b c := ⟨i 0, i 1, eq_ix2 i⟩
    exact mean_entry x b c

/-- The reference's gate, at (b, e), is the gate function of its channel means. -/
theorem gate_entry (x : (⟨S16x256x128x128, .f32⟩ : BufTy).Contents (Elt Ideal)) (w1 : (⟨S16x256, .f32⟩ : BufTy).Contents (Elt Ideal))
    (b1 : (⟨S16, .f32⟩ : BufTy).Contents (Elt Ideal)) (w2 : (⟨S256x16, .f32⟩ : BufTy).Contents (Elt Ideal))
    (b2 : (⟨S256, .f32⟩ : BufTy).Contents (Elt Ideal)) (b : Fin 16) (e : Fin 256) :
    val_main_v17 (F := Ideal) x w1 b1 w2 b2 (ix2 b e) = gate (val_main_v2 (F := Ideal) x) w1 b1 w2 b2 b e := by
  have i10 : idx_main_v10 (ix2 b e) = ix2 (0 : Fin 1) e :=
    funext fun a => Fin.ext (by match a with | ⟨0, _⟩ => rfl | ⟨1, _⟩ => rfl)
  have i9 : idx_main_v9 (ix2 (0 : Fin 1) e) = ix1 e := funext fun a => Fin.ext (by match a with | ⟨0, _⟩ => rfl)
  have l8 : ∀ j : Fin 16, lidx_main_v8 (ix2 b e) j = ix2 b j := fun j =>
    funext fun a => Fin.ext (by match a with | ⟨0, _⟩ => rfl | ⟨1, _⟩ => rfl)
  have r8 : ∀ j : Fin 16, ridx_main_v8 (ix2 b e) j = ix2 e j := fun j =>
    funext fun a => Fin.ext (by match a with | ⟨0, _⟩ => rfl | ⟨1, _⟩ => rfl)
  have l3 : ∀ (j : Fin 16) (d : Fin 256), lidx_main_v3 (ix2 b j) d = ix2 b d := fun j d =>
    funext fun a => Fin.ext (by match a with | ⟨0, _⟩ => rfl | ⟨1, _⟩ => rfl)
  have r3 : ∀ (j : Fin 16) (d : Fin 256), ridx_main_v3 (ix2 b j) d = ix2 j d := fun j d =>
    funext fun a => Fin.ext (by match a with | ⟨0, _⟩ => rfl | ⟨1, _⟩ => rfl)
  have i5 : ∀ j : Fin 16, idx_main_v5 (ix2 b j) = ix2 (0 : Fin 1) j := fun j =>
    funext fun a => Fin.ext (by match a with | ⟨0, _⟩ => rfl | ⟨1, _⟩ => rfl)
  have i4 : ∀ j : Fin 16, idx_main_v4 (ix2 (0 : Fin 1) j) = ix1 j := fun j =>
    funext fun a => Fin.ext (by match a with | ⟨0, _⟩ => rfl)
  rw [val_main_v17_apply, val_main_v16_apply, val_main_cst_2_apply, val_main_v15_apply, val_main_v14_apply, val_main_cst_1_apply,
    val_main_v13_apply, val_main_v12_apply, val_main_v11_apply, val_main_v10_apply, val_main_v9_apply, val_main_v8_apply, i10, i9]
  simp only [l8, r8, val_main_v7_apply, val_main_v6_apply, val_main_v3_apply, val_main_v5_apply, val_main_v4_apply,
    val_main_call0_v0_apply, val_main_call0_cst_apply, l3, r3, i5, i4]
  simp only [Ideal.ofBits_def, Cert.LogisticSpelt.one_word, Ideal.ofBits_zero_f32]
  exact Cert.LogisticSpelt.logistic_spelt _

/-- The reference's result, at (b, c, h, w), is the gated input there. -/
theorem result_entry (x : (⟨S16x256x128x128, .f32⟩ : BufTy).Contents (Elt Ideal)) (w1 : (⟨S16x256, .f32⟩ : BufTy).Contents (Elt Ideal))
    (b1 : (⟨S16, .f32⟩ : BufTy).Contents (Elt Ideal)) (w2 : (⟨S256x16, .f32⟩ : BufTy).Contents (Elt Ideal))
    (b2 : (⟨S256, .f32⟩ : BufTy).Contents (Elt Ideal)) (b : Fin 16) (c : Fin 256) (h w : Fin 128) :
    val_main_v20 (F := Ideal) x w1 b1 w2 b2 (ix4 b c h w) = gated x w1 b1 w2 b2 (ix4 b c h w) := by
  have i19 : idx_main_v19 (ix4 b c h w) = ix4 b c (0 : Fin 1) (0 : Fin 1) :=
    funext fun a => Fin.ext (by match a with | ⟨0, _⟩ => rfl | ⟨1, _⟩ => rfl | ⟨2, _⟩ => rfl | ⟨3, _⟩ => rfl)
  have i18 : idx_main_v18 (ix4 b c (0 : Fin 1) (0 : Fin 1)) = ix2 b c :=
    funext fun a => Fin.ext (by match a with | ⟨0, _⟩ => rfl | ⟨1, _⟩ => rfl)
  rw [val_main_v20_apply, val_main_v19_apply, val_main_v18_apply, i19, i18, gate_entry, gated_apply, mean_eq_stage]
  rfl

/-- The reference's result is the gated input. -/
theorem result_eq (x : (⟨S16x256x128x128, .f32⟩ : BufTy).Contents (Elt Ideal)) (w1 : (⟨S16x256, .f32⟩ : BufTy).Contents (Elt Ideal))
    (b1 : (⟨S16, .f32⟩ : BufTy).Contents (Elt Ideal)) (w2 : (⟨S256x16, .f32⟩ : BufTy).Contents (Elt Ideal))
    (b2 : (⟨S256, .f32⟩ : BufTy).Contents (Elt Ideal)) :
    val_main_v20 (F := Ideal) x w1 b1 w2 b2 = gated x w1 b1 w2 b2 :=
  funext fun i => by
    obtain ⟨b, c, h, w, rfl⟩ : ∃ (b : Fin 16) (c : Fin 256) (h w : Fin 128), i = ix4 b c h w := ⟨i 0, i 1, i 2, i 3, eq_ix4 i⟩
    exact result_entry x w1 b1 w2 b2 b c h w

end Cert.ReferenceIdeal.RefValue

end
-- ==== Proof.lean ====
/-
  A squeeze-and-excitation gate over x of shape [16, 256, 128, 128]: every channel (b, c) of x is scaled by
  logistic(max(mean(x) · w1ᵀ + b1, 0) · w2ᵀ + b2) at (b, c), where mean(x) holds one number per channel.

  The kernel does it in three passes over x reshaped to 4096 rows of 16384 entries: a row sum times 2⁻¹⁴ per row,
  the two small linear layers with the clamp and the logistic function on the 16 × 256 means, and a product of each
  row with its gate. The reference takes the mean as a sum over the two position axes divided by 16384 and spells the
  logistic function as one over one plus the exponential of the negative. On the extended reals both are the same
  function of the five arguments, entry by entry: a row's entries are the channel's positions, dividing by 16384 is
  multiplying by 2⁻¹⁴ at every value, the two matrix products are the same finite sums, and the spelt-out logistic
  expression is the logistic function. No step needs the inputs to be finite.

  The idealized kernel is the kernel's own text read on the extended reals (no operation was rewritten), so there is
  nothing to preserve beyond that reading.
-/
import proofs.«156370_j33706903339438_1_alg».proof.Defs
import proofs.«156370_j33706903339438_1_alg».proof.Proof.Gen.Kernel
import proofs.«156370_j33706903339438_1_alg».proof.Proof.Gen.Kernel.Skeleton
import proofs.«156370_j33706903339438_1_alg».proof.Proof.Gen.Kernel.Launch
import proofs.«156370_j33706903339438_1_alg».proof.Proof.Gen.Kernel.Points
import proofs.«156370_j33706903339438_1_alg».proof.Proof.Gen.Kernel.Frame
import proofs.«156370_j33706903339438_1_alg».proof.Proof.Gen.KernelIdeal
import proofs.«156370_j33706903339438_1_alg».proof.Proof.Gen.KernelIdeal.Skeleton
import proofs.«156370_j33706903339438_1_alg».proof.Proof.Gen.KernelIdeal.Launch
import proofs.«156370_j33706903339438_1_alg».proof.Proof.Gen.KernelIdeal.Points
import proofs.«156370_j33706903339438_1_alg».proof.Proof.Gen.KernelIdeal.Frame
import proofs.«156370_j33706903339438_1_alg».proof.Proof.Gen.ReferenceIdeal
import proofs.«156370_j33706903339438_1_alg».proof.Proof.Gen.ReferenceIdeal.Run
import proofs.«156370_j33706903339438_1_alg».proof.Proof.Gen.ReferenceIdeal.Read
import proofs.«156370_j33706903339438_1_alg».proof.Proof.Gen.Pre_finite_inputs
import proofs.«156370_j33706903339438_1_alg».proof.Proof.KernelRun
import proofs.«156370_j33706903339438_1_alg».proof.Proof.KernelValue
import proofs.«156370_j33706903339438_1_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as launched: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the five arguments both programs end with the gated input as their result. -/
theorem algebraic : Cert.algebraic_KernelIdeal_ReferenceIdeal := by
  intro m ρ m' ρ' _ hagree
  refine ⟨fun c => Cert.Gate.gated
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.KernelValue.result_eq_gated m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v20_eq _ _ _ _ _).trans (Cert.ReferenceIdeal.RefValue.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
